-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x9x354x1218 : Shape := ⟨4, ![8, 9, 354, 1218]⟩
abbrev S8x1x352x1216 : Shape := ⟨4, ![8, 1, 352, 1216]⟩
abbrev S_ : Shape := ⟨0, ![]⟩

class Facts : Prop where
  bcast_S_S8x9x354x1218 : S_.BroadcastsInDim S8x9x354x1218 (![] : Fin 0 → Fin S8x9x354x1218.rank)
  reducesTo_S8x9x354x1218_S_d0_1_2_3 : S8x9x354x1218.ReducesTo [0, 1, 2, 3] S_
  h_S_ : 0 < S_.numel
  bcast_S_S8x1x352x1216 : S_.BroadcastsInDim S8x1x352x1216 (![] : Fin 0 → Fin S8x1x352x1216.rank)
  reducesTo_S8x1x352x1216_S_d0_1_2_3 : S8x1x352x1216.ReducesTo [0, 1, 2, 3] S_

variable [Facts]

def fn {F : FTy → Type} [FloatOps F] (main_arg0 : FVec F S8x9x354x1218 .f32) (main_arg1 : FVec F S8x1x352x1216 .f32) (main_arg2 : FVec F S8x1x352x1216 .f32) : IVec S_ 1 :=
  let main_v0 : FVec F S8x9x354x1218 .f32 := Host.absf main_arg0
  let main_cst : FVec F S_ .f32 := constant S_ .f32 0x7F800000#32
  let main_v1 : FVec F S8x9x354x1218 .f32 := broadcastInDim S8x9x354x1218 ![] bcast_S_S8x9x354x1218 main_cst
  let main_v2 : IVec S8x9x354x1218 1 := cmpf .olt main_v0 main_v1
  let main_c : IVec S_ 1 := constantI S_ 1 1#1
  let main_v3 : IVec S_ 1 := (fun x v => Host.reduce IntOp.andi x v reducesTo_S8x9x354x1218_S_d0_1_2_3 h_S_) main_v2 main_c
  let main_v4 : FVec F S8x1x352x1216 .f32 := Host.absf main_arg1
  let main_cst_0 : FVec F S_ .f32 := constant S_ .f32 0x7F800000#32
  let main_v5 : FVec F S8x1x352x1216 .f32 := broadcastInDim S8x1x352x1216 ![] bcast_S_S8x1x352x1216 main_cst_0
  let main_v6 : IVec S8x1x352x1216 1 := cmpf .olt main_v4 main_v5
  let main_c_1 : IVec S_ 1 := constantI S_ 1 1#1
  let main_v7 : IVec S_ 1 := (fun x v => Host.reduce IntOp.andi x v reducesTo_S8x1x352x1216_S_d0_1_2_3 h_S_) main_v6 main_c_1
  let main_v8 : IVec S_ 1 := andi main_v3 main_v7
  let main_v9 : FVec F S8x1x352x1216 .f32 := Host.absf main_arg2
  let main_cst_2 : FVec F S_ .f32 := constant S_ .f32 0x7F800000#32
  let main_v10 : FVec F S8x1x352x1216 .f32 := broadcastInDim S8x1x352x1216 ![] bcast_S_S8x1x352x1216 main_cst_2
  let main_v11 : IVec S8x1x352x1216 1 := cmpf .olt main_v9 main_v10
  let main_c_3 : IVec S_ 1 := constantI S_ 1 1#1
  let main_v12 : IVec S_ 1 := (fun x v => Host.reduce IntOp.andi x v reducesTo_S8x1x352x1216_S_d0_1_2_3 h_S_) main_v11 main_c_3
  let main_v13 : IVec S_ 1 := andi main_v8 main_v12
  main_v13
-- ==== Kernel.lean ====
abbrev S8x9x354x1218 : Shape := ⟨4, ![8, 9, 354, 1218]⟩
abbrev S8x1x352x1216 : Shape := ⟨4, ![8, 1, 352, 1216]⟩
abbrev S_ : Shape := ⟨0, ![]⟩
abbrev S8x1x354x1218 : Shape := ⟨4, ![8, 1, 354, 1218]⟩
abbrev S1x9x354x1218 : Shape := ⟨4, ![1, 9, 354, 1218]⟩
abbrev S1x1x354x1218 : Shape := ⟨4, ![1, 1, 354, 1218]⟩
abbrev S1x1x352x1216 : Shape := ⟨4, ![1, 1, 352, 1216]⟩
abbrev S352x1216 : Shape := ⟨2, ![352, 1216]⟩

abbrev nBuf : Space → Nat
  | .hbm => 10
  | .vmem => 6
  | .smem => 0
  | _ => 0

abbrev bufTy : (tb : Table) → Fin (tcTables nBuf tb) → BufTy
  | .hbm, ⟨0, _⟩ => ⟨S8x9x354x1218, .f32⟩
  | .hbm, ⟨1, _⟩ => ⟨S8x1x352x1216, .f32⟩
  | .hbm, ⟨2, _⟩ => ⟨S8x1x352x1216, .f32⟩
  | .hbm, ⟨3, _⟩ => ⟨S_, .i32⟩
  | .hbm, ⟨4, _⟩ => ⟨S_, .f32⟩
  | .hbm, ⟨5, _⟩ => ⟨S8x1x354x1218, .f32⟩
  | .hbm, ⟨6, _⟩ => ⟨S_, .i32⟩
  | .hbm, ⟨7, _⟩ => ⟨S_, .f32⟩
  | .hbm, ⟨8, _⟩ => ⟨S8x1x354x1218, .f32⟩
  | .hbm, ⟨9, _⟩ => ⟨S8x1x352x1216, .f32⟩
  | .local _ .vmem, ⟨0, _⟩ => ⟨S1x9x354x1218, .f32⟩
  | .local _ .vmem, ⟨1, _⟩ => ⟨S1x9x354x1218, .f32⟩
  | .local _ .vmem, ⟨2, _⟩ => ⟨S1x1x354x1218, .f32⟩
  | .local _ .vmem, ⟨3, _⟩ => ⟨S1x1x354x1218, .f32⟩
  | .local _ .vmem, ⟨4, _⟩ => ⟨S1x1x352x1216, .f32⟩
  | .local _ .vmem, ⟨5, _⟩ => ⟨S1x1x352x1216, .f32⟩
  | _, _ => ⟨S8x9x354x1218, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x9x354x1218 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x354x1218 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x354x1218 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 2 → Memref sig .tc .vmem S1x1x352x1216 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  pads_S8x1x352x1216_S8x1x354x1218_000_000_110_110 : S8x1x352x1216.Pads (![0, 0, 1, 1] : Fin 4 → Nat) ![0, 0, 1, 1] ![0, 0, 0, 0] S8x1x354x1218
  h_S_ : 0 < S_.numel
  inb_S1x1x354x1218_S1x1x352x1216_0_0_2_2 : ∀ a, (![0, 0, 2, 2] : Fin 4 → Nat) a + S1x1x352x1216.size a ≤ S1x1x354x1218.size a
  h_S1x1x352x1216 : 0 < S1x1x352x1216.numel
  shapeCasts_S1x1x352x1216_S352x1216 : S1x1x352x1216.ShapeCasts S352x1216
  inb_S1x9x354x1218_S1x1x352x1216_0_0_1_1 : ∀ a, (![0, 0, 1, 1] : Fin 4 → Nat) a + S1x1x352x1216.size a ≤ S1x9x354x1218.size a
  inb_S1x1x354x1218_S1x1x352x1216_0_0_2_1 : ∀ a, (![0, 0, 2, 1] : Fin 4 → Nat) a + S1x1x352x1216.size a ≤ S1x1x354x1218.size a
  inb_S1x9x354x1218_S1x1x352x1216_0_1_1_1 : ∀ a, (![0, 1, 1, 1] : Fin 4 → Nat) a + S1x1x352x1216.size a ≤ S1x9x354x1218.size a
  inb_S1x1x354x1218_S1x1x352x1216_0_0_2_0 : ∀ a, (![0, 0, 2, 0] : Fin 4 → Nat) a + S1x1x352x1216.size a ≤ S1x1x354x1218.size a
  inb_S1x9x354x1218_S1x1x352x1216_0_2_1_1 : ∀ a, (![0, 2, 1, 1] : Fin 4 → Nat) a + S1x1x352x1216.size a ≤ S1x9x354x1218.size a
  inb_S1x1x354x1218_S1x1x352x1216_0_0_1_2 : ∀ a, (![0, 0, 1, 2] : Fin 4 → Nat) a + S1x1x352x1216.size a ≤ S1x1x354x1218.size a
  inb_S1x9x354x1218_S1x1x352x1216_0_3_1_1 : ∀ a, (![0, 3, 1, 1] : Fin 4 → Nat) a + S1x1x352x1216.size a ≤ S1x9x354x1218.size a
  inb_S1x1x354x1218_S1x1x352x1216_0_0_1_1 : ∀ a, (![0, 0, 1, 1] : Fin 4 → Nat) a + S1x1x352x1216.size a ≤ S1x1x354x1218.size a
  inb_S1x9x354x1218_S1x1x352x1216_0_4_1_1 : ∀ a, (![0, 4, 1, 1] : Fin 4 → Nat) a + S1x1x352x1216.size a ≤ S1x9x354x1218.size a
  inb_S1x1x354x1218_S1x1x352x1216_0_0_1_0 : ∀ a, (![0, 0, 1, 0] : Fin 4 → Nat) a + S1x1x352x1216.size a ≤ S1x1x354x1218.size a
  inb_S1x9x354x1218_S1x1x352x1216_0_5_1_1 : ∀ a, (![0, 5, 1, 1] : Fin 4 → Nat) a + S1x1x352x1216.size a ≤ S1x9x354x1218.size a
  inb_S1x1x354x1218_S1x1x352x1216_0_0_0_2 : ∀ a, (![0, 0, 0, 2] : Fin 4 → Nat) a + S1x1x352x1216.size a ≤ S1x1x354x1218.size a
  inb_S1x9x354x1218_S1x1x352x1216_0_6_1_1 : ∀ a, (![0, 6, 1, 1] : Fin 4 → Nat) a + S1x1x352x1216.size a ≤ S1x9x354x1218.size a
  inb_S1x1x354x1218_S1x1x352x1216_0_0_0_1 : ∀ a, (![0, 0, 0, 1] : Fin 4 → Nat) a + S1x1x352x1216.size a ≤ S1x1x354x1218.size a
  inb_S1x9x354x1218_S1x1x352x1216_0_7_1_1 : ∀ a, (![0, 7, 1, 1] : Fin 4 → Nat) a + S1x1x352x1216.size a ≤ S1x9x354x1218.size a
  inb_S1x1x354x1218_S1x1x352x1216_0_0_0_0 : ∀ a, (![0, 0, 0, 0] : Fin 4 → Nat) a + S1x1x352x1216.size a ≤ S1x1x354x1218.size a
  inb_S1x9x354x1218_S1x1x352x1216_0_8_1_1 : ∀ a, (![0, 8, 1, 1] : Fin 4 → Nat) a + S1x1x352x1216.size a ≤ S1x9x354x1218.size a
  inb_S1x1x352x1216_S1x1x352x1216_0_0_0_0 : ∀ a, (![0, 0, 0, 0] : Fin 4 → Nat) a + S1x1x352x1216.size a ≤ S1x1x352x1216.size a
  shapeCasts_S352x1216_S1x1x352x1216 : S352x1216.ShapeCasts S1x1x352x1216
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x9x354x1218.size a ≤ S8x9x354x1218.size a
  hwx0_0 : ∀ i : grid0.Coords, EltTy.bits .f32 = 32 ∨ (Rect.block (s := S8x9x354x1218) S1x9x354x1218.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1x354x1218.size a ≤ S8x1x354x1218.size a
  hwx0_1 : ∀ i : grid0.Coords, EltTy.bits .f32 = 32 ∨ (Rect.block (s := S8x1x354x1218) S1x1x354x1218.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x354x1218.size a ≤ S8x1x354x1218.size a
  hwx0_2 : ∀ i : grid0.Coords, EltTy.bits .f32 = 32 ∨ (Rect.block (s := S8x1x354x1218) S1x1x354x1218.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x352x1216.size a ≤ S8x1x352x1216.size a
  hwx0_3 : ∀ i : grid0.Coords, EltTy.bits .f32 = 32 ∨ (Rect.block (s := S8x1x352x1216) S1x1x352x1216.size (cc0_transform_3 i) (hinb0_3 i)).WholeWords (EltTy.packing .f32)

variable [Facts₀]

abbrev win0_0 : Pipeline.Window sig grid0 :=
  Pipeline.Window.ofSpec (Memref.whole main_arg0) S1x9x354x1218.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x354x1218.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x354x1218.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x352x1216.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x9x354x1218 : Shape := ⟨4, ![8, 9, 354, 1218]⟩
abbrev S8x1x352x1216 : Shape := ⟨4, ![8, 1, 352, 1216]⟩
abbrev S_ : Shape := ⟨0, ![]⟩
abbrev S8x1x354x1218 : Shape := ⟨4, ![8, 1, 354, 1218]⟩
abbrev S8x354x1218 : Shape := ⟨3, ![8, 354, 1218]⟩
abbrev S8x352x1216 : Shape := ⟨3, ![8, 352, 1216]⟩

abbrev nBuf : Space → Nat
  | .hbm => 54
  | .vmem => 0
  | .smem => 0
  | _ => 0

abbrev bufTy : (tb : Table) → Fin (tcTables nBuf tb) → BufTy
  | .hbm, ⟨0, _⟩ => ⟨S8x9x354x1218, .f32⟩
  | .hbm, ⟨1, _⟩ => ⟨S8x1x352x1216, .f32⟩
  | .hbm, ⟨2, _⟩ => ⟨S8x1x352x1216, .f32⟩
  | .hbm, ⟨3, _⟩ => ⟨S_, .i32⟩
  | .hbm, ⟨4, _⟩ => ⟨S_, .f32⟩
  | .hbm, ⟨5, _⟩ => ⟨S8x1x354x1218, .f32⟩
  | .hbm, ⟨6, _⟩ => ⟨S8x354x1218, .f32⟩
  | .hbm, ⟨7, _⟩ => ⟨S_, .i32⟩
  | .hbm, ⟨8, _⟩ => ⟨S_, .f32⟩
  | .hbm, ⟨9, _⟩ => ⟨S8x1x354x1218, .f32⟩
  | .hbm, ⟨10, _⟩ => ⟨S8x354x1218, .f32⟩
  | .hbm, ⟨11, _⟩ => ⟨S_, .i32⟩
  | .hbm, ⟨12, _⟩ => ⟨S_, .f32⟩
  | .hbm, ⟨13, _⟩ => ⟨S8x1x354x1218, .f32⟩
  | .hbm, ⟨14, _⟩ => ⟨S8x354x1218, .f32⟩
  | .hbm, ⟨15, _⟩ => ⟨S_, .i32⟩
  | .hbm, ⟨16, _⟩ => ⟨S_, .f32⟩
  | .hbm, ⟨17, _⟩ => ⟨S8x1x354x1218, .f32⟩
  | .hbm, ⟨18, _⟩ => ⟨S8x354x1218, .f32⟩
  | .hbm, ⟨19, _⟩ => ⟨S_, .i32⟩
  | .hbm, ⟨20, _⟩ => ⟨S_, .f32⟩
  | .hbm, ⟨21, _⟩ => ⟨S8x1x354x1218, .f32⟩
  | .hbm, ⟨22, _⟩ => ⟨S8x354x1218, .f32⟩
  | .hbm, ⟨23, _⟩ => ⟨S_, .i32⟩
  | .hbm, ⟨24, _⟩ => ⟨S_, .f32⟩
  | .hbm, ⟨25, _⟩ => ⟨S8x1x354x1218, .f32⟩
  | .hbm, ⟨26, _⟩ => ⟨S8x354x1218, .f32⟩
  | .hbm, ⟨27, _⟩ => ⟨S_, .i32⟩
  | .hbm, ⟨28, _⟩ => ⟨S_, .f32⟩
  | .hbm, ⟨29, _⟩ => ⟨S8x1x354x1218, .f32⟩
  | .hbm, ⟨30, _⟩ => ⟨S8x354x1218, .f32⟩
  | .hbm, ⟨31, _⟩ => ⟨S_, .i32⟩
  | .hbm, ⟨32, _⟩ => ⟨S_, .f32⟩
  | .hbm, ⟨33, _⟩ => ⟨S8x1x354x1218, .f32⟩
  | .hbm, ⟨34, _⟩ => ⟨S8x354x1218, .f32⟩
  | .hbm, ⟨35, _⟩ => ⟨S_, .i32⟩
  | .hbm, ⟨36, _⟩ => ⟨S_, .f32⟩
  | .hbm, ⟨37, _⟩ => ⟨S8x1x354x1218, .f32⟩
  | .hbm, ⟨38, _⟩ => ⟨S8x354x1218, .f32⟩
  | .hbm, ⟨39, _⟩ => ⟨S8x1x354x1218, .f32⟩
  | .hbm, ⟨40, _⟩ => ⟨S8x1x354x1218, .f32⟩
  | .hbm, ⟨41, _⟩ => ⟨S8x1x354x1218, .f32⟩
  | .hbm, ⟨42, _⟩ => ⟨S8x1x354x1218, .f32⟩
  | .hbm, ⟨43, _⟩ => ⟨S8x1x354x1218, .f32⟩
  | .hbm, ⟨44, _⟩ => ⟨S8x1x354x1218, .f32⟩
  | .hbm, ⟨45, _⟩ => ⟨S8x1x354x1218, .f32⟩
  | .hbm, ⟨46, _⟩ => ⟨S8x1x354x1218, .f32⟩
  | .hbm, ⟨47, _⟩ => ⟨S8x1x354x1218, .f32⟩
  | .hbm, ⟨48, _⟩ => ⟨S8x9x354x1218, .f32⟩
  | .hbm, ⟨49, _⟩ => ⟨S8x9x354x1218, .f32⟩
  | .hbm, ⟨50, _⟩ => ⟨S_, .f32⟩
  | .hbm, ⟨51, _⟩ => ⟨S8x354x1218, .f32⟩
  | .hbm, ⟨52, _⟩ => ⟨S8x352x1216, .f32⟩
  | .hbm, ⟨53, _⟩ => ⟨S8x1x352x1216, .f32⟩
  | _, _ => ⟨S8x9x354x1218, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call2_v0 : Ref sig .tc := ⟨.hbm, 12, rfl⟩
abbrev main_v4 : Ref sig .tc := ⟨.hbm, 13, rfl⟩
abbrev main_v5 : Ref sig .tc := ⟨.hbm, 14, rfl⟩
abbrev main_c_2 : Ref sig .tc := ⟨.hbm, 15, rfl⟩
abbrev main_call3_v0 : Ref sig .tc := ⟨.hbm, 16, rfl⟩
abbrev main_v6 : Ref sig .tc := ⟨.hbm, 17, rfl⟩
abbrev main_v7 : Ref sig .tc := ⟨.hbm, 18, rfl⟩
abbrev main_c_3 : Ref sig .tc := ⟨.hbm, 19, rfl⟩
abbrev main_call4_v0 : Ref sig .tc := ⟨.hbm, 20, rfl⟩
abbrev main_v8 : Ref sig .tc := ⟨.hbm, 21, rfl⟩
abbrev main_v9 : Ref sig .tc := ⟨.hbm, 22, rfl⟩
abbrev main_c_4 : Ref sig .tc := ⟨.hbm, 23, rfl⟩
abbrev main_call5_v0 : Ref sig .tc := ⟨.hbm, 24, rfl⟩
abbrev main_v10 : Ref sig .tc := ⟨.hbm, 25, rfl⟩
abbrev main_v11 : Ref sig .tc := ⟨.hbm, 26, rfl⟩
abbrev main_c_5 : Ref sig .tc := ⟨.hbm, 27, rfl⟩
abbrev main_call6_v0 : Ref sig .tc := ⟨.hbm, 28, rfl⟩
abbrev main_v12 : Ref sig .tc := ⟨.hbm, 29, rfl⟩
abbrev main_v13 : Ref sig .tc := ⟨.hbm, 30, rfl⟩
abbrev main_c_6 : Ref sig .tc := ⟨.hbm, 31, rfl⟩
abbrev main_call7_v0 : Ref sig .tc := ⟨.hbm, 32, rfl⟩
abbrev main_v14 : Ref sig .tc := ⟨.hbm, 33, rfl⟩
abbrev main_v15 : Ref sig .tc := ⟨.hbm, 34, rfl⟩
abbrev main_c_7 : Ref sig .tc := ⟨.hbm, 35, rfl⟩
abbrev main_call8_v0 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩

abbrev nD : Nat := 1
abbrev τ : Topo := Topo.v7x

variable {F : FTy → Type} [FloatOps F]

class Facts₀ : Prop where
  pads_S8x1x352x1216_S8x1x354x1218_000_000_020_020 : S8x1x352x1216.Pads (![0, 0, 0, 0] : Fin 4 → Nat) ![0, 0, 2, 2] ![0, 0, 0, 0] S8x1x354x1218
  h_S_ : 0 < S_.numel
  shapeCasts_S8x1x354x1218_S8x354x1218 : S8x1x354x1218.ShapeCasts S8x354x1218
  pads_S8x1x352x1216_S8x1x354x1218_000_000_020_110 : S8x1x352x1216.Pads (![0, 0, 0, 1] : Fin 4 → Nat) ![0, 0, 2, 1] ![0, 0, 0, 0] S8x1x354x1218
  pads_S8x1x352x1216_S8x1x354x1218_000_000_020_200 : S8x1x352x1216.Pads (![0, 0, 0, 2] : Fin 4 → Nat) ![0, 0, 2, 0] ![0, 0, 0, 0] S8x1x354x1218
  pads_S8x1x352x1216_S8x1x354x1218_000_000_110_020 : S8x1x352x1216.Pads (![0, 0, 1, 0] : Fin 4 → Nat) ![0, 0, 1, 2] ![0, 0, 0, 0] S8x1x354x1218
  pads_S8x1x352x1216_S8x1x354x1218_000_000_110_110 : S8x1x352x1216.Pads (![0, 0, 1, 1] : Fin 4 → Nat) ![0, 0, 1, 1] ![0, 0, 0, 0] S8x1x354x1218
  pads_S8x1x352x1216_S8x1x354x1218_000_000_110_200 : S8x1x352x1216.Pads (![0, 0, 1, 2] : Fin 4 → Nat) ![0, 0, 1, 0] ![0, 0, 0, 0] S8x1x354x1218
  pads_S8x1x352x1216_S8x1x354x1218_000_000_200_020 : S8x1x352x1216.Pads (![0, 0, 2, 0] : Fin 4 → Nat) ![0, 0, 0, 2] ![0, 0, 0, 0] S8x1x354x1218
  pads_S8x1x352x1216_S8x1x354x1218_000_000_200_110 : S8x1x352x1216.Pads (![0, 0, 2, 1] : Fin 4 → Nat) ![0, 0, 0, 1] ![0, 0, 0, 0] S8x1x354x1218
  pads_S8x1x352x1216_S8x1x354x1218_000_000_200_200 : S8x1x352x1216.Pads (![0, 0, 2, 2] : Fin 4 → Nat) ![0, 0, 0, 0] ![0, 0, 0, 0] S8x1x354x1218
  bcast_S8x354x1218_S8x1x354x1218_0_2_3 : S8x354x1218.BroadcastsInDim S8x1x354x1218 (![0, 2, 3] : Fin 3 → Fin S8x1x354x1218.rank)
  concatenates_S8x1x354x1218_S8x1x354x1218_S8x1x354x1218_S8x1x354x1218_S8x1x354x1218_S8x1x354x1218_S8x1x354x1218_S8x1x354x1218_S8x1x354x1218_S8x9x354x1218_d1 : Shape.Concatenates [S8x1x354x1218, S8x1x354x1218, S8x1x354x1218, S8x1x354x1218, S8x1x354x1218, S8x1x354x1218, S8x1x354x1218, S8x1x354x1218, S8x1x354x1218] S8x9x354x1218 1
  reducesTo_S8x9x354x1218_S8x354x1218_d1 : S8x9x354x1218.ReducesTo [1] S8x354x1218
  slices_S8x354x1218_S8x352x1216_0_1_1 : S8x354x1218.Slices ![0, 1, 1] S8x352x1216
  bcast_S8x352x1216_S8x1x352x1216_0_2_3 : S8x352x1216.BroadcastsInDim S8x1x352x1216 (![0, 2, 3] : Fin 3 → Fin S8x1x352x1216.rank)

variable [Facts₀]

class Facts : Prop extends Facts₀ where

variable [Facts]
-- ==== Proof.Spec.lean ====
/-
  One step of convolutional spatial propagation, as a function of whole arrays.

  For a batch entry `b` and a pixel `(h, w)` of a 352 × 1216 plane the result is the sum, over the nine offsets
  `(di, dj)` of a 3 × 3 window (`k = 3 di + dj`), of a weight `gw (b, k, 1 + h, 1 + w)` times the neighbour
  `src_k (b, 0, h + 1 - di, w + 1 - dj)` of the pixel — taken as zero outside the plane —, where the centre
  offset `k = 4` reads the plane `h0` and the eight others read `hn`. Written over the planes padded with one ring of
  zeros (354 × 1218) the neighbour is the entry `(b, 0, (2 - di) + h, (2 - dj) + w)` of the padded plane, always in
  range. The sum is taken in the order `k = 0, 1, …, 8`, grouped to the left.
-/
import Idealize.ShloMosaic.PureOps.Ideal
import Idealize.ShloMosaic.PureOps.ShapeOps
import Idealize.ShloMosaic.Lib.ValueIdx

noncomputable section

namespace Cert.Cspn

open Idealize.ShloMosaic Idealize.ShloMosaic.TcCoe

variable {F : FTy → Type} [FloatOps F]

/-- The weights: batch × offset × padded rows × padded columns. -/
abbrev Sgw : Shape := ⟨4, ![8, 9, 354, 1218]⟩
/-- A plane per batch entry, and the result. -/
abbrev Sout : Shape := ⟨4, ![8, 1, 352, 1216]⟩
/-- A plane with one ring of padding. -/
abbrev Spad : Shape := ⟨4, ![8, 1, 354, 1218]⟩
/-- The scalar shape. -/
abbrev Sone : Shape := ⟨0, ![]⟩

/-- The padding value: the integer zero converted to a float. -/
def zval : Sone.Idx → Elt F .f32 := sitofp .f32 (constantI Sone 32 0#32)

/-- A plane with one ring of the padding value around it. -/
def padded (x : Sout.Idx → Elt F .f32) : Spad.Idx → Elt F .f32 :=
  pad Spad ![0, 0, 1, 1] ![0, 0, 1, 1] ![0, 0, 0, 0] x (zval (F := F)) (by decide) (by decide)

/-- The weight's index for result index `i = (b, 0, h, w)` and offset `k`: `(b, k, 1 + h, 1 + w)`. -/
abbrev wIdx (i : Sout.Idx) (k : Nat) (hk : k < 9 := by decide) : Sgw.Idx := fun a => match a with
  | ⟨0, _⟩ => ⟨(i 0).val, (i 0).isLt⟩
  | ⟨1, _⟩ => ⟨k, hk⟩
  | ⟨2, _⟩ => ⟨1 + (i 2).val, by have h2 : (i 2).val < 352 := (i 2).isLt; show 1 + (i 2).val < 354; omega⟩
  | ⟨3, _⟩ => ⟨1 + (i 3).val, by have h3 : (i 3).val < 1216 := (i 3).isLt; show 1 + (i 3).val < 1218; omega⟩

/-- The padded plane's index for result index `i = (b, 0, h, w)` and window offsets `dr, dc ≤ 2`:
    `(b, 0, dr + h, dc + w)`. -/
abbrev pIdx (i : Sout.Idx) (dr dc : Nat) (hr : dr < 3 := by decide) (hc : dc < 3 := by decide) : Spad.Idx :=
  fun a => match a with
  | ⟨0, _⟩ => ⟨(i 0).val, (i 0).isLt⟩
  | ⟨1, _⟩ => ⟨0, Nat.one_pos⟩
  | ⟨2, _⟩ => ⟨dr + (i 2).val, by have h2 : (i 2).val < 352 := (i 2).isLt; show dr + (i 2).val < 354; omega⟩
  | ⟨3, _⟩ => ⟨dc + (i 3).val, by have h3 : (i 3).val < 1216 := (i 3).isLt; show dc + (i 3).val < 1218; omega⟩

/-- Nine products summed in order, grouped to the left. -/
def nine (a0 b0 a1 b1 a2 b2 a3 b3 a4 b4 a5 b5 a6 b6 a7 b7 a8 b8 : Elt F .f32) : Elt F .f32 :=
  FloatOps.addf (FloatOps.addf (FloatOps.addf (FloatOps.addf (FloatOps.addf (FloatOps.addf (FloatOps.addf (FloatOps.addf
    (FloatOps.mulf a0 b0) (FloatOps.mulf a1 b1)) (FloatOps.mulf a2 b2)) (FloatOps.mulf a3 b3)) (FloatOps.mulf a4 b4))
    (FloatOps.mulf a5 b5)) (FloatOps.mulf a6 b6)) (FloatOps.mulf a7 b7)) (FloatOps.mulf a8 b8)

/-- Equal factors give equal sums. -/
theorem nine_congr {a0 b0 a1 b1 a2 b2 a3 b3 a4 b4 a5 b5 a6 b6 a7 b7 a8 b8 : Elt F .f32}
    {a0' b0' a1' b1' a2' b2' a3' b3' a4' b4' a5' b5' a6' b6' a7' b7' a8' b8' : Elt F .f32}
    (ha0 : a0 = a0') (hb0 : b0 = b0') (ha1 : a1 = a1') (hb1 : b1 = b1') (ha2 : a2 = a2') (hb2 : b2 = b2')
    (ha3 : a3 = a3') (hb3 : b3 = b3') (ha4 : a4 = a4') (hb4 : b4 = b4') (ha5 : a5 = a5') (hb5 : b5 = b5')
    (ha6 : a6 = a6') (hb6 : b6 = b6') (ha7 : a7 = a7') (hb7 : b7 = b7') (ha8 : a8 = a8') (hb8 : b8 = b8') :
    nine (F := F) a0 b0 a1 b1 a2 b2 a3 b3 a4 b4 a5 b5 a6 b6 a7 b7 a8 b8
      = nine a0' b0' a1' b1' a2' b2' a3' b3' a4' b4' a5' b5' a6' b6' a7' b7' a8' b8' := by
  subst ha0 hb0 ha1 hb1 ha2 hb2 ha3 hb3 ha4 hb4 ha5 hb5 ha6 hb6 ha7 hb7 ha8 hb8
  rfl

/-- The propagation step over the weights `gw` and the two PADDED planes `pn` (the neighbours') and `pc` (the
    centre's): offset `k = 3 di + dj` reads the padded plane at window offsets `(2 - di, 2 - dj)`. -/
def cspn (gw : Sgw.Idx → Elt F .f32) (pn pc : Spad.Idx → Elt F .f32) : Sout.Idx → Elt F .f32 := fun i =>
  nine (gw (wIdx i 0)) (pn (pIdx i 2 2)) (gw (wIdx i 1)) (pn (pIdx i 2 1)) (gw (wIdx i 2)) (pn (pIdx i 2 0))
    (gw (wIdx i 3)) (pn (pIdx i 1 2)) (gw (wIdx i 4)) (pc (pIdx i 1 1)) (gw (wIdx i 5)) (pn (pIdx i 1 0))
    (gw (wIdx i 6)) (pn (pIdx i 0 2)) (gw (wIdx i 7)) (pn (pIdx i 0 1)) (gw (wIdx i 8)) (pn (pIdx i 0 0))

/-- The propagation step over the weights and the two planes as given. -/
def step (gw : Sgw.Idx → Elt F .f32) (hn h0 : Sout.Idx → Elt F .f32) : Sout.Idx → Elt F .f32 :=
  cspn gw (padded hn) (padded h0)

end Cert.Cspn

end
-- ==== Proof.KernelValue.lean ====
/-
  The kernel's result array, as the propagation step of the whole argument arrays.

  The grid has one point per batch entry. At point `t` the kernel stages block `t` of the weights (all nine offsets,
  the whole padded plane) and block `t` of the two padded planes, and leaves in block `t` of the result, at
  `(0, 0, h, w)`, the nine products `weights (0, k, 1 + h, 1 + w) · plane (0, 0, dr + h, dc + w)` summed in order.
  Each staged entry is the array's entry with batch coordinate `t`; so the block is block `t` of the step `cspn` of the
  arrays as the region finds them, the blocks tile the result (the point that covers an index is its batch
  coordinate), and the two padded planes are, by the host operations before the region, the arguments with a ring of
  the padding value around them.
-/
import proofs.«128017_j37056977830363_1_alg».proof.Proof.Gen.KernelIdeal.Value
import proofs.«128017_j37056977830363_1_alg».proof.Proof.Spec

noncomputable section

namespace Cert.KernelIdeal.Step

open Cert.KernelIdeal Cert.KernelIdeal.Gen Cert.Cspn Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The index maps -/

/-- Every window's block index at point `t` is `(t, 0, 0, 0)`. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 4) = t.val ∧ win0_2.index t (1 : Fin 4) = 0 ∧ win0_2.index t (2 : Fin 4) = 0 ∧ win0_2.index t (3 : Fin 4) = 0
    ∧ win0_3.index t (0 : Fin 4) = t.val ∧ win0_3.index t (1 : Fin 4) = 0 ∧ win0_3.index t (2 : Fin 4) = 0 ∧ win0_3.index t (3 : Fin 4) = 0 :=
  (by decide +kernel : ∀ t : Fin grid0.N, _)

/-! ## The padded planes the region finds -/

/-- The first padded plane is the second argument with a ring of the padding value. -/
theorem plane_n (c : Dev nD) : V m c main_v0 = padded (m ((c : Thread nD τ).loc main_arg1)) := by
  dsimp only [V]
  simp only [hostOps0, hostOps0_1, hostOps0_2, hostOps0_3, List.flatten_cons, List.flatten_nil, List.append_nil, List.cons_append,
    List.nil_append]
  after_results
  rfl

/-- The second padded plane is the third argument with a ring of the padding value. -/
theorem plane_c (c : Dev nD) : V m c main_v1 = padded (m ((c : Thread nD τ).loc main_arg2)) := by
  dsimp only [V]
  simp only [hostOps0, hostOps0_1, hostOps0_2, hostOps0_3, List.flatten_cons, List.flatten_nil, List.append_nil, List.cons_append,
    List.nil_append]
  after_results
  rfl

/-! ## The staged blocks, read at an index -/

/-- The weights' block at point `t`, at `(0, k, 1 + h, 1 + w)`, is the weights at `(t, k, 1 + h, 1 + w)`. -/
theorem gw_read (c : Dev nD) (t : Fin cfg0.N) (y : S1x1x352x1216.Idx) (k : Nat) (hk : k < 9) (z : S1x9x354x1218.Idx)
    (h1 : (z 1).val = k + 1 * 0) (h2 : (z 2).val = 1 + 1 * (y 2).val) (h3 : (z 3).val = 1 + 1 * (y 3).val) :
    iblk m c 0 t z = V m c main_arg0 (wIdx (((cfg0.win 3).blk t).view.emb y) k hk) := by
  obtain ⟨e00, e01, e02, e03, -, -, -, -, -, -, -, -, e30, e31, e32, e33⟩ := idx_facts t
  have hz0 : (z 0).val < 1 := (z 0).isLt
  have hy0 : (y 0).val < 1 := (y 0).isLt
  have e : ((cfg0.win 0).blk t).view.emb z = wIdx (((cfg0.win 3).blk t).view.emb y) k hk := by
    funext a; apply Fin.ext
    match a with
    | ⟨0, _⟩ => show win0_0.index t (0 : Fin 4) * 1 + 1 * (z 0).val = win0_3.index t (0 : Fin 4) * 1 + 1 * (y 0).val; omega
    | ⟨1, _⟩ => show win0_0.index t (1 : Fin 4) * 9 + 1 * (z 1).val = k; omega
    | ⟨2, _⟩ => show win0_0.index t (2 : Fin 4) * 354 + 1 * (z 2).val = 1 + (win0_3.index t (2 : Fin 4) * 352 + 1 * (y 2).val); omega
    | ⟨3, _⟩ => show win0_0.index t (3 : Fin 4) * 1218 + 1 * (z 3).val = 1 + (win0_3.index t (3 : Fin 4) * 1216 + 1 * (y 3).val); omega
  show V m c main_arg0 (((cfg0.win 0).blk t).view.emb z) = V m c main_arg0 (wIdx (((cfg0.win 3).blk t).view.emb y) k hk)
  rw [e]

/-- The first padded plane's block at point `t`, at `(0, 0, dr + h, dc + w)`, is the plane at `(t, 0, dr + h, dc + w)`. -/
theorem pn_read (c : Dev nD) (t : Fin cfg0.N) (y : S1x1x352x1216.Idx) (dr dc : Nat) (hr : dr < 3) (hc : dc < 3)
    (z : S1x1x354x1218.Idx) (h2 : (z 2).val = dr + 1 * (y 2).val) (h3 : (z 3).val = dc + 1 * (y 3).val) :
    iblk m c 1 t z = V m c main_v0 (pIdx (((cfg0.win 3).blk t).view.emb y) dr dc hr hc) := by
  obtain ⟨-, -, -, -, e10, e11, e12, e13, -, -, -, -, e30, e31, e32, e33⟩ := idx_facts t
  have hz0 : (z 0).val < 1 := (z 0).isLt
  have hz1 : (z 1).val < 1 := (z 1).isLt
  have hy0 : (y 0).val < 1 := (y 0).isLt
  have e : ((cfg0.win 1).blk t).view.emb z = pIdx (((cfg0.win 3).blk t).view.emb y) dr dc hr hc := by
    funext a; apply Fin.ext
    match a with
    | ⟨0, _⟩ => show win0_1.index t (0 : Fin 4) * 1 + 1 * (z 0).val = win0_3.index t (0 : Fin 4) * 1 + 1 * (y 0).val; omega
    | ⟨1, _⟩ => show win0_1.index t (1 : Fin 4) * 1 + 1 * (z 1).val = 0; omega
    | ⟨2, _⟩ => show win0_1.index t (2 : Fin 4) * 354 + 1 * (z 2).val = dr + (win0_3.index t (2 : Fin 4) * 352 + 1 * (y 2).val); omega
    | ⟨3, _⟩ => show win0_1.index t (3 : Fin 4) * 1218 + 1 * (z 3).val = dc + (win0_3.index t (3 : Fin 4) * 1216 + 1 * (y 3).val); omega
  show V m c main_v0 (((cfg0.win 1).blk t).view.emb z) = V m c main_v0 (pIdx (((cfg0.win 3).blk t).view.emb y) dr dc hr hc)
  rw [e]

/-- The second padded plane's block at point `t`, likewise. -/
theorem pc_read (c : Dev nD) (t : Fin cfg0.N) (y : S1x1x352x1216.Idx) (dr dc : Nat) (hr : dr < 3) (hc : dc < 3)
    (z : S1x1x354x1218.Idx) (h2 : (z 2).val = dr + 1 * (y 2).val) (h3 : (z 3).val = dc + 1 * (y 3).val) :
    iblk m c 2 t z = V m c main_v1 (pIdx (((cfg0.win 3).blk t).view.emb y) dr dc hr hc) := by
  obtain ⟨-, -, -, -, -, -, -, -, e20, e21, e22, e23, e30, e31, e32, e33⟩ := idx_facts t
  have hz0 : (z 0).val < 1 := (z 0).isLt
  have hz1 : (z 1).val < 1 := (z 1).isLt
  have hy0 : (y 0).val < 1 := (y 0).isLt
  have e : ((cfg0.win 2).blk t).view.emb z = pIdx (((cfg0.win 3).blk t).view.emb y) dr dc hr hc := by
    funext a; apply Fin.ext
    match a with
    | ⟨0, _⟩ => show win0_2.index t (0 : Fin 4) * 1 + 1 * (z 0).val = win0_3.index t (0 : Fin 4) * 1 + 1 * (y 0).val; omega
    | ⟨1, _⟩ => show win0_2.index t (1 : Fin 4) * 1 + 1 * (z 1).val = 0; omega
    | ⟨2, _⟩ => show win0_2.index t (2 : Fin 4) * 354 + 1 * (z 2).val = dr + (win0_3.index t (2 : Fin 4) * 352 + 1 * (y 2).val); omega
    | ⟨3, _⟩ => show win0_2.index t (3 : Fin 4) * 1218 + 1 * (z 3).val = dc + (win0_3.index t (3 : Fin 4) * 1216 + 1 * (y 3).val); omega
  show V m c main_v1 (((cfg0.win 2).blk t).view.emb z) = V m c main_v1 (pIdx (((cfg0.win 3).blk t).view.emb y) dr dc hr hc)
  rw [e]

/-! ## What the body leaves, at an index -/

/-- The body's block at `y`: nine products of a weight's entry and a plane's entry, each read through its load's
    rectangle, summed in order. -/
theorem out_at (x0 : Vec F S1x9x354x1218 .f32) (x1 x2 : Vec F S1x1x354x1218 .f32) (y : S1x1x352x1216.Idx) :
    out0_3 x0 x1 x2 y = nine
      (x0 (r0_1.idx (Value.ix3_0 y))) (x1 (r0_0.idx (Value.ix3_1 y)))
      (x0 (r0_3.idx (Value.ix3_2 y))) (x1 (r0_2.idx (Value.ix3_3 y)))
      (x0 (r0_5.idx (Value.ix3_4 y))) (x1 (r0_4.idx (Value.ix3_5 y)))
      (x0 (r0_7.idx (Value.ix3_6 y))) (x1 (r0_6.idx (Value.ix3_7 y)))
      (x0 (r0_9.idx (Value.ix3_8 y))) (x2 (r0_8.idx (Value.ix3_9 y)))
      (x0 (r0_11.idx (Value.ix3_10 y))) (x1 (r0_10.idx (Value.ix3_11 y)))
      (x0 (r0_13.idx (Value.ix3_12 y))) (x1 (r0_12.idx (Value.ix3_13 y)))
      (x0 (r0_15.idx (Value.ix3_14 y))) (x1 (r0_14.idx (Value.ix3_15 y)))
      (x0 (r0_17.idx (Value.ix3_16 y))) (x1 (r0_16.idx (Value.ix3_17 y))) := by
  unfold out0_3
  exact Value.canon3_eq (View.ld x0 r0_1) (View.ld x1 r0_0) (View.ld x0 r0_3) (View.ld x1 r0_2) (View.ld x0 r0_5) (View.ld x1 r0_4)
    (View.ld x0 r0_7) (View.ld x1 r0_6) (View.ld x0 r0_9) (View.ld x2 r0_8) (View.ld x0 r0_11) (View.ld x1 r0_10)
    (View.ld x0 r0_13) (View.ld x1 r0_12) (View.ld x0 r0_15) (View.ld x1 r0_14) (View.ld x0 r0_17) (View.ld x1 r0_16) y

/-- WHAT POINT `t` WRITES BACK is block `t` of the step of the arrays as the region finds them. -/
theorem flushed_eq (c : Dev nD) (t : Fin cfg0.N) :
    (dats m 0 c).flushed 3 t
      = ((cfg0.win 3).blk t).view.read (Elt F) (cspn (V m c main_arg0) (V m c main_v0) (V m c main_v1)) := by
  rw [Value.flushed3]
  funext y
  show out0_3 (iblk m c 0 t) (iblk m c 1 t) (iblk m c 2 t) y
    = cspn (V m c main_arg0) (V m c main_v0) (V m c main_v1) (((cfg0.win 3).blk t).view.emb y)
  refine (out_at (iblk m c 0 t) (iblk m c 1 t) (iblk m c 2 t) y).trans ?_
  unfold cspn
  exact nine_congr
    (gw_read m c t y 0 (by decide) (r0_1.idx (Value.ix3_0 y)) rfl rfl rfl)
    (pn_read m c t y 2 2 (by decide) (by decide) (r0_0.idx (Value.ix3_1 y)) rfl rfl)
    (gw_read m c t y 1 (by decide) (r0_3.idx (Value.ix3_2 y)) rfl rfl rfl)
    (pn_read m c t y 2 1 (by decide) (by decide) (r0_2.idx (Value.ix3_3 y)) rfl rfl)
    (gw_read m c t y 2 (by decide) (r0_5.idx (Value.ix3_4 y)) rfl rfl rfl)
    (pn_read m c t y 2 0 (by decide) (by decide) (r0_4.idx (Value.ix3_5 y)) rfl rfl)
    (gw_read m c t y 3 (by decide) (r0_7.idx (Value.ix3_6 y)) rfl rfl rfl)
    (pn_read m c t y 1 2 (by decide) (by decide) (r0_6.idx (Value.ix3_7 y)) rfl rfl)
    (gw_read m c t y 4 (by decide) (r0_9.idx (Value.ix3_8 y)) rfl rfl rfl)
    (pc_read m c t y 1 1 (by decide) (by decide) (r0_8.idx (Value.ix3_9 y)) rfl rfl)
    (gw_read m c t y 5 (by decide) (r0_11.idx (Value.ix3_10 y)) rfl rfl rfl)
    (pn_read m c t y 1 0 (by decide) (by decide) (r0_10.idx (Value.ix3_11 y)) rfl rfl)
    (gw_read m c t y 6 (by decide) (r0_13.idx (Value.ix3_12 y)) rfl rfl rfl)
    (pn_read m c t y 0 2 (by decide) (by decide) (r0_12.idx (Value.ix3_13 y)) rfl rfl)
    (gw_read m c t y 7 (by decide) (r0_15.idx (Value.ix3_14 y)) rfl rfl rfl)
    (pn_read m c t y 0 1 (by decide) (by decide) (r0_14.idx (Value.ix3_15 y)) rfl rfl)
    (gw_read m c t y 8 (by decide) (r0_17.idx (Value.ix3_16 y)) rfl rfl rfl)
    (pn_read m c t y 0 0 (by decide) (by decide) (r0_16.idx (Value.ix3_17 y)) rfl rfl)

/-! ## From the blocks to the array -/

/-- An index of the result is in point `t`'s block iff each coordinate is in the block's range on its axis. -/
theorem mem_blk (t : Fin cfg0.N) (i : S8x1x352x1216.Idx) :
    i ∈ ((cfg0.win 3).blk t).view.set ↔ ∀ a : Fin 4, win0_3.index t a * S1x1x352x1216.size a ≤ (i a).val
      ∧ (i a).val < win0_3.index t a * S1x1x352x1216.size a + S1x1x352x1216.size a := by
  show i ∈ ((View.whole main_v2).slice (win0_3.rect t)).set ↔ _
  rw [View.set_slice_whole, Rect.mem_set_unit]
  exact Iff.rfl

/-- Every index of the result is in the block of the point its batch coordinate names. -/
theorem cover (i : S8x1x352x1216.Idx) :
    ∃ t : Fin cfg0.N, (cfg0.win 3).flush t = true ∧ i ∈ ((cfg0.win 3).blk t).view.set := by
  have hN : grid0.N = 8 := N_0
  have h0 : (i 0).val < 8 := (i 0).isLt
  have h1 : (i 1).val < 1 := (i 1).isLt
  have h2 : (i 2).val < 352 := (i 2).isLt
  have h3 : (i 3).val < 1216 := (i 3).isLt
  let t : Fin cfg0.N := ⟨(i 0).val, by show (i 0).val < grid0.N; omega⟩
  obtain ⟨-, -, -, -, -, -, -, -, -, -, -, -, e30, e31, e32, e33⟩ := idx_facts t
  have e30' : win0_3.index t (0 : Fin 4) = (i 0).val := e30
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 352 ≤ (i 2).val ∧ (i 2).val < win0_3.index t (2 : Fin 4) * 352 + 352; omega
  | ⟨3, _⟩ => show win0_3.index t (3 : Fin 4) * 1216 ≤ (i 3).val ∧ (i 3).val < win0_3.index t (3 : Fin 4) * 1216 + 1216; omega

/-- THE RESULT ARRAY after the run is the step of the arrays as the region finds them. -/
theorem final (c : Dev nD) :
    (dats m 0 c).arrAt 3 cfg0.N = cspn (V m c main_arg0) (V m c main_v0) (V m c main_v1) :=
  (dats m 0 c).arrAt_eq_of_cover 3 (cspn (V m c main_arg0) (V m c main_v0) (V m c main_v1))
    (fun t _ => flushed_eq m c t) cover

/-- … which is the propagation step of the three arguments. -/
theorem final_step (c : Dev nD) :
    (dats m 0 c).arrAt 3 cfg0.N
      = step (m ((c : Thread nD τ).loc main_arg0)) (m ((c : Thread nD τ).loc main_arg1)) (m ((c : Thread nD τ).loc main_arg2)) := by
  rw [final, V_main_arg0, plane_n, plane_c]
  rfl

/-! ## The run, read -/

/-- Every weakly fair execution of the kernel's program terminates with the result array at the propagation step of
    the arguments, the arguments unchanged. -/
theorem run : θ_run defs (onTc (τ := τ) (main (F := F))) ⟨m, fun _ => 0, ρ⟩ fun r => ∀ c : Dev nD,
      r.2.mem ((c : Thread nD τ).loc main_v2)
        = step (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_step m c), (h c).2⟩) (Value.run_blocks m ρ)

end Cert.KernelIdeal.Step

end
-- ==== Proof.LibNary9.lean ====
/-
  A host operation over NINE operand references, read at its result.

  The library's result lemma for an operation over a family of references gives the operation's function of the
  family `fun k => F (refs k)`: under that binder the reference `refs k` is not a literal, and no further result
  lemma applies to the operands' contents. For a LITERAL family of nine references the contents are laid out one by
  one, each at its own reference, as a nine-tuple `vec9` whose components are ordinary arguments: rewriting goes on
  inside every operand, and the tuple read at a literal index is that component. (The library states the like for four.)

  With it, a line of operations cut in two: the contents after the whole line are the contents after its tail run
  from the contents after its first `n` operations — so that the operands of a late operation can be read out of the
  head of the line once, and the tail read over them as unknowns.
-/
import Idealize.ShloMosaic.Lib.StableHlo.Run

namespace Idealize.ShloMosaic.StableHlo

universe u

/-- The contents after a line are those after its tail, run from the contents after its first `n` operations. -/
theorem after_take_drop {τ : Topo} {sig : RefSig} {Val : EltTy → Type} (n : Nat) :
    ∀ (l : List (HloOp τ sig Val)) (V : Valuation τ sig Val), after l V = after (l.drop n) (after (l.take n) V) := by
  induction n with
  | zero => intro l V; rfl
  | succ n ih =>
    intro l V
    cases l with
    | nil => rfl
    | cons op l => exact ih l (op.result V)

/-- A dependent nine-tuple as a function of the index. -/
def vec9 {α : Fin 9 → Sort u} (a0 : α 0) (a1 : α 1) (a2 : α 2) (a3 : α 3) (a4 : α 4) (a5 : α 5) (a6 : α 6) (a7 : α 7)
    (a8 : α 8) : (k : Fin 9) → α k := fun k => match k with
  | ⟨0, _⟩ => a0 | ⟨1, _⟩ => a1 | ⟨2, _⟩ => a2 | ⟨3, _⟩ => a3 | ⟨4, _⟩ => a4 | ⟨5, _⟩ => a5 | ⟨6, _⟩ => a6 | ⟨7, _⟩ => a7
  | ⟨8, _⟩ => a8

section Read
variable {α : Fin 9 → Sort u} (a0 : α 0) (a1 : α 1) (a2 : α 2) (a3 : α 3) (a4 : α 4) (a5 : α 5) (a6 : α 6) (a7 : α 7)
  (a8 : α 8)
theorem vec9_0 : vec9 a0 a1 a2 a3 a4 a5 a6 a7 a8 0 = a0 := rfl
theorem vec9_1 : vec9 a0 a1 a2 a3 a4 a5 a6 a7 a8 1 = a1 := rfl
theorem vec9_2 : vec9 a0 a1 a2 a3 a4 a5 a6 a7 a8 2 = a2 := rfl
theorem vec9_3 : vec9 a0 a1 a2 a3 a4 a5 a6 a7 a8 3 = a3 := rfl
theorem vec9_4 : vec9 a0 a1 a2 a3 a4 a5 a6 a7 a8 4 = a4 := rfl
theorem vec9_5 : vec9 a0 a1 a2 a3 a4 a5 a6 a7 a8 5 = a5 := rfl
theorem vec9_6 : vec9 a0 a1 a2 a3 a4 a5 a6 a7 a8 6 = a6 := rfl
theorem vec9_7 : vec9 a0 a1 a2 a3 a4 a5 a6 a7 a8 7 = a7 := rfl
theorem vec9_8 : vec9 a0 a1 a2 a3 a4 a5 a6 a7 a8 8 = a8 := rfl
end Read

variable {τ : Topo} {sig : RefSig} {Val : EltTy → Type}
variable {x0 x1 x2 x3 x4 x5 x6 x7 x8 y : Ref sig .tc}

/-- The result of an operation over the literal family `![x0, …, x8]`, each operand's contents at its own reference. -/
theorem nary9_result
    (f : ((k : Fin 9) → ((![x0, x1, x2, x3, x4, x5, x6, x7, x8] : Fin 9 → Ref sig .tc) k).ty.Contents Val) → y.ty.Contents Val)
    (hxs hy) (F : Valuation τ sig Val) :
    (nary (τ := τ) ![x0, x1, x2, x3, x4, x5, x6, x7, x8] y f hxs hy).result F (Proc.devRef .tc y)
      = f (vec9 (α := fun k => ((![x0, x1, x2, x3, x4, x5, x6, x7, x8] : Fin 9 → Ref sig .tc) k).ty.Contents Val)
          (F (Proc.devRef .tc x0)) (F (Proc.devRef .tc x1)) (F (Proc.devRef .tc x2)) (F (Proc.devRef .tc x3))
          (F (Proc.devRef .tc x4)) (F (Proc.devRef .tc x5)) (F (Proc.devRef .tc x6)) (F (Proc.devRef .tc x7))
          (F (Proc.devRef .tc x8))) := by
  rw [nary_result]; congr 1; funext k; fin_cases k <;> rfl

/-- The same with the result reference un-indexed, the form a simplifier pass over a line of operations keys on. -/
theorem nary9_result'
    (f : ((k : Fin 9) → ((![x0, x1, x2, x3, x4, x5, x6, x7, x8] : Fin 9 → Ref sig .tc) k).ty.Contents Val) → y.ty.Contents Val)
    (hxs hy) (F : Valuation τ sig Val) :
    (nary (τ := τ) ![x0, x1, x2, x3, x4, x5, x6, x7, x8] y f hxs hy).result F (no_index (Proc.devRef .tc y))
      = f (vec9 (α := fun k => ((![x0, x1, x2, x3, x4, x5, x6, x7, x8] : Fin 9 → Ref sig .tc) k).ty.Contents Val)
          (F (Proc.devRef .tc x0)) (F (Proc.devRef .tc x1)) (F (Proc.devRef .tc x2)) (F (Proc.devRef .tc x3))
          (F (Proc.devRef .tc x4)) (F (Proc.devRef .tc x5)) (F (Proc.devRef .tc x6)) (F (Proc.devRef .tc x7))
          (F (Proc.devRef .tc x8))) :=
  nary9_result f hxs hy F

end Idealize.ShloMosaic.StableHlo
-- ==== Proof.LibPadShift.lean ====
/-
  Zero padding moved against the read index.

  A host `pad` with no interior padding lays its operand into a larger array at the offset `lo`, the padding value
  everywhere else. Entry `j` of the result therefore depends only on the difference `j - lo`, taken axis by axis as an
  integer: if it names an entry of the operand the result is that entry, otherwise it is the padding value. Two pads
  of ONE operand with ONE padding value (and one interior) but different low and high paddings, read at two indices
  whose differences to their own low paddings agree on every axis, are thus the same entry. This is what identifies a
  window of fixed padding read at a moving offset with a moving padding read at a fixed offset.
-/
import Idealize.ShloMosaic.PureOps.ShapeOps

namespace Idealize.ShloMosaic

variable {s t : Shape} {α : Type}

/-- Two pads of the same operand `x` and padding value `v`, low paddings `lo` and `lo'`, read at `j` and `j'` with
    `j a - lo a = j' a - lo' a` on every axis (written without subtraction: `j a + lo' a = j' a + lo a`), agree. -/
theorem pad_eq_pad_of_shift (lo hi lo' hi' interior : Fin s.rank → Nat) (x : s.Idx → α) {u : Shape} (v : u.Idx → α)
    (h : s.Pads lo hi interior t) (h' : s.Pads lo' hi' interior t) (hu : 0 < u.numel) (j j' : t.Idx)
    (hj : ∀ a : Fin s.rank, (j (a.cast h.1)).val + lo' a = (j' (a.cast h'.1)).val + lo a) :
    pad t lo hi interior x v h hu j = pad t lo' hi' interior x v h' hu j' := by
  unfold pad
  have key : ∀ a : Fin s.rank, (lo a ≤ (j (a.cast h.1)).val ↔ lo' a ≤ (j' (a.cast h'.1)).val)
      ∧ (j (a.cast h.1)).val - lo a = (j' (a.cast h'.1)).val - lo' a := fun a => by
    have := hj a; omega
  by_cases hin : ∀ a : Fin s.rank, lo a ≤ (j (a.cast h.1)).val ∧ ((j (a.cast h.1)).val - lo a) % (interior a + 1) = 0
      ∧ ((j (a.cast h.1)).val - lo a) / (interior a + 1) < s.size a
  · have hin' : ∀ a : Fin s.rank, lo' a ≤ (j' (a.cast h'.1)).val
        ∧ ((j' (a.cast h'.1)).val - lo' a) % (interior a + 1) = 0
        ∧ ((j' (a.cast h'.1)).val - lo' a) / (interior a + 1) < s.size a := fun a => by
      obtain ⟨h1, h2, h3⟩ := hin a
      obtain ⟨k1, k2⟩ := key a
      rw [← k2]; exact ⟨k1.mp h1, h2, h3⟩
    rw [dif_pos hin, dif_pos hin']
    exact congrArg x (funext fun a => Fin.ext (by
      show ((j (a.cast h.1)).val - lo a) / (interior a + 1) = ((j' (a.cast h'.1)).val - lo' a) / (interior a + 1)
      rw [(key a).2]))
  · have hin' : ¬ ∀ a : Fin s.rank, lo' a ≤ (j' (a.cast h'.1)).val
        ∧ ((j' (a.cast h'.1)).val - lo' a) % (interior a + 1) = 0
        ∧ ((j' (a.cast h'.1)).val - lo' a) / (interior a + 1) < s.size a := fun hh => hin fun a => by
      obtain ⟨h1, h2, h3⟩ := hh a
      obtain ⟨k1, k2⟩ := key a
      rw [k2]; exact ⟨k1.mpr h1, h2, h3⟩
    rw [dif_neg hin, dif_neg hin']

end Idealize.ShloMosaic
-- ==== Proof.RefValue.lean ====
/-
  The reference's result, as the propagation step of its arguments.

  The reference pads each plane nine times, slot `k = 3 di + dj` with `di` rows above and `2 - di` below, `dj` columns
  to the left and `2 - dj` to the right, stacks the nine padded planes along a new axis, multiplies by the weights
  entry by entry, sums over the stacking axis from zero and keeps the entries `(b, 1 + h, 1 + w)`. At such an entry slot
  `k` holds the plane's entry `(1 + h - di, 1 + w - dj)`, or the padding value outside the plane: the same entry as the
  plane padded by one ring read at `((2 - di) + h, (2 - dj) + w)` — both differ from their low padding by the same
  amount. So the sum is the nine products of the step, in the same order; the initial zero adds nothing.
-/
import proofs.«128017_j37056977830363_1_alg».proof.Proof.RefRead
import proofs.«128017_j37056977830363_1_alg».proof.Proof.Spec
import proofs.«128017_j37056977830363_1_alg».proof.Proof.LibPadShift
import Idealize.ShloMosaic.PureOps.Ideal.Laws
import Mathlib.Algebra.BigOperators.Fin

noncomputable section

namespace Cert.ReferenceIdeal.Step

open Cert.ReferenceIdeal Cert.ReferenceIdeal.ReadP Cert.Cspn Idealize.ShloMosaic Idealize.ShloMosaic.TcCoe

variable {F : FTy → Type} [FloatOps F]

/-- A sum over nine indices, written out in order and grouped to the left. -/
theorem sum9 {M : Type} [AddCommMonoid M] (f : Fin 9 → M) :
    ∑ k : Fin 9, f k = f 0 + f 1 + f 2 + f 3 + f 4 + f 5 + f 6 + f 7 + f 8 := by
  rw [Fin.sum_univ_castSucc, Fin.sum_univ_eight]
  rfl

/-- A plane padded with `di` rows above and `dj` columns to the left (any padding below and to the right that fits),
    read at `(b, 0, 1 + h, 1 + w)`, is the plane padded by one ring read at `(b, 0, dr + h, dc + w)` when
    `dr + di = 2` and `dc + dj = 2`. -/
theorem slot (x : Sout.Idx → Elt F .f32) (lo hi : Fin 4 → Nat) (hp : Sout.Pads lo hi ![0, 0, 0, 0] Spad)
    (hu : 0 < Sone.numel) (di dj dr dc : Nat) (hr : dr < 3) (hc : dc < 3) (hdr : dr + di = 2) (hdc : dc + dj = 2)
    (hlo0 : lo 0 = 0) (hlo1 : lo 1 = 0) (hlo2 : lo 2 = di) (hlo3 : lo 3 = dj) (i : Sout.Idx) (j : Spad.Idx)
    (hj0 : (j 0).val = (i 0).val) (hj2 : (j 2).val = 1 + (i 2).val) (hj3 : (j 3).val = 1 + (i 3).val) :
    pad Spad lo hi ![0, 0, 0, 0] x (zval (F := F)) hp hu j = padded x (pIdx i dr dc hr hc) := by
  unfold padded
  have hj1 : (j 1).val < 1 := (j 1).isLt
  exact pad_eq_pad_of_shift lo hi ![0, 0, 1, 1] ![0, 0, 1, 1] ![0, 0, 0, 0] x (zval (F := F)) hp _ hu j (pIdx i dr dc hr hc)
    (fun a => match a with
      | ⟨0, _⟩ => by show (j 0).val + 0 = (i 0).val + lo 0; omega
      | ⟨1, _⟩ => by show (j 1).val + 0 = 0 + lo 1; omega
      | ⟨2, _⟩ => by show (j 2).val + 1 = dr + (i 2).val + lo 2; omega
      | ⟨3, _⟩ => by show (j 3).val + 1 = dc + (i 3).val + lo 3; omega)

/-- The reshape to three axes and the broadcast back to four read `(b, 0, r, c)` where they are read. -/
theorem round_trip (i : Sout.Idx) :
    (idx_main_v1 (idx_main_v18 (pIdx i 1 1)) 0).val = (i 0).val
    ∧ (idx_main_v1 (idx_main_v18 (pIdx i 1 1)) 2).val = 1 + (i 2).val
    ∧ (idx_main_v1 (idx_main_v18 (pIdx i 1 1)) 3).val = 1 + (i 3).val := by
  have h0 : (i 0).val < 8 := (i 0).isLt
  have h2 : (i 2).val < 352 := (i 2).isLt
  have h3 : (i 3).val < 1216 := (i 3).isLt
  refine ⟨?_, ?_, ?_⟩
  · show (((i 0).val * 354 + (1 + (i 2).val)) * 1218 + (1 + (i 3).val)) / 431172 = (i 0).val; omega
  · show (((i 0).val * 354 + (1 + (i 2).val)) * 1218 + (1 + (i 3).val)) / 1218 % 354 = 1 + (i 2).val; omega
  · show (((i 0).val * 354 + (1 + (i 2).val)) * 1218 + (1 + (i 3).val)) % 1218 = 1 + (i 3).val; omega

/-- Off the stacking axis, the index `(b, 0, 1 + h, 1 + w)` of a slot has the coordinates of `(b, k, 1 + h, 1 + w)`. -/
theorem off_axis (i : Sout.Idx) (k : Nat) (hk : k < 9) (b : Fin 4) (hb : b ≠ (1 : Fin 4)) :
    ((pIdx i 1 1 : Spad.Idx) b).val = ((wIdx i k hk : Sgw.Idx) b).val :=
  match b with
  | ⟨0, _⟩ => rfl
  | ⟨1, _⟩ => absurd rfl hb
  | ⟨2, _⟩ => rfl
  | ⟨3, _⟩ => rfl

/-! ## The nine slots of the stack at `(b, k, 1 + h, 1 + w)` -/

theorem stack0 (x1 x2 : Sout.Idx → Elt F .f32) (i : Sout.Idx) :
    val_main_v27 (F := F) x1 x2 (wIdx i (0 : Fin 9).val (0 : Fin 9).isLt) = padded x1 (pIdx i 2 2) := by
  unfold val_main_v27
  refine (concatenate_apply_piece (1 : Fin 4) _ _ (wIdx i (0 : Fin 9).val (0 : Fin 9).isLt) 0 ?_ S8x1x354x1218
    (val_main_v18 (F := F) x1) ?_ rfl 0 ?_ (pIdx i 1 1) ?_ ?_).trans ?_
  · show 0 < 9; decide
  · rfl
  · rfl
  · exact fun b hb => off_axis i (0 : Fin 9).val (0 : Fin 9).isLt b hb
  · rfl
  · rw [val_main_v18_apply, val_main_v1_apply]
    exact slot x1 _ _ _ _ 0 0 2 2 (by decide) (by decide) rfl rfl rfl rfl rfl rfl i _ (round_trip i).1 (round_trip i).2.1
      (round_trip i).2.2

theorem stack1 (x1 x2 : Sout.Idx → Elt F .f32) (i : Sout.Idx) :
    val_main_v27 (F := F) x1 x2 (wIdx i (1 : Fin 9).val (1 : Fin 9).isLt) = padded x1 (pIdx i 2 1) := by
  unfold val_main_v27
  refine (concatenate_apply_piece (1 : Fin 4) _ _ (wIdx i (1 : Fin 9).val (1 : Fin 9).isLt) 1 ?_ S8x1x354x1218
    (val_main_v19 (F := F) x1) ?_ rfl 1 ?_ (pIdx i 1 1) ?_ ?_).trans ?_
  · show 1 < 9; decide
  · rfl
  · rfl
  · exact fun b hb => off_axis i (1 : Fin 9).val (1 : Fin 9).isLt b hb
  · rfl
  · rw [val_main_v19_apply, val_main_v3_apply]
    exact slot x1 _ _ _ _ 0 1 2 1 (by decide) (by decide) rfl rfl rfl rfl rfl rfl i _ (round_trip i).1 (round_trip i).2.1
      (round_trip i).2.2

theorem stack2 (x1 x2 : Sout.Idx → Elt F .f32) (i : Sout.Idx) :
    val_main_v27 (F := F) x1 x2 (wIdx i (2 : Fin 9).val (2 : Fin 9).isLt) = padded x1 (pIdx i 2 0) := by
  unfold val_main_v27
  refine (concatenate_apply_piece (1 : Fin 4) _ _ (wIdx i (2 : Fin 9).val (2 : Fin 9).isLt) 2 ?_ S8x1x354x1218
    (val_main_v20 (F := F) x1) ?_ rfl 2 ?_ (pIdx i 1 1) ?_ ?_).trans ?_
  · show 2 < 9; decide
  · rfl
  · rfl
  · exact fun b hb => off_axis i (2 : Fin 9).val (2 : Fin 9).isLt b hb
  · rfl
  · rw [val_main_v20_apply, val_main_v5_apply]
    exact slot x1 _ _ _ _ 0 2 2 0 (by decide) (by decide) rfl rfl rfl rfl rfl rfl i _ (round_trip i).1 (round_trip i).2.1
      (round_trip i).2.2

theorem stack3 (x1 x2 : Sout.Idx → Elt F .f32) (i : Sout.Idx) :
    val_main_v27 (F := F) x1 x2 (wIdx i (3 : Fin 9).val (3 : Fin 9).isLt) = padded x1 (pIdx i 1 2) := by
  unfold val_main_v27
  refine (concatenate_apply_piece (1 : Fin 4) _ _ (wIdx i (3 : Fin 9).val (3 : Fin 9).isLt) 3 ?_ S8x1x354x1218
    (val_main_v21 (F := F) x1) ?_ rfl 3 ?_ (pIdx i 1 1) ?_ ?_).trans ?_
  · show 3 < 9; decide
  · rfl
  · rfl
  · exact fun b hb => off_axis i (3 : Fin 9).val (3 : Fin 9).isLt b hb
  · rfl
  · rw [val_main_v21_apply, val_main_v7_apply]
    exact slot x1 _ _ _ _ 1 0 1 2 (by decide) (by decide) rfl rfl rfl rfl rfl rfl i _ (round_trip i).1 (round_trip i).2.1
      (round_trip i).2.2

theorem stack4 (x1 x2 : Sout.Idx → Elt F .f32) (i : Sout.Idx) :
    val_main_v27 (F := F) x1 x2 (wIdx i (4 : Fin 9).val (4 : Fin 9).isLt) = padded x2 (pIdx i 1 1) := by
  unfold val_main_v27
  refine (concatenate_apply_piece (1 : Fin 4) _ _ (wIdx i (4 : Fin 9).val (4 : Fin 9).isLt) 4 ?_ S8x1x354x1218
    (val_main_v22 (F := F) x2) ?_ rfl 4 ?_ (pIdx i 1 1) ?_ ?_).trans ?_
  · show 4 < 9; decide
  · rfl
  · rfl
  · exact fun b hb => off_axis i (4 : Fin 9).val (4 : Fin 9).isLt b hb
  · rfl
  · rw [val_main_v22_apply, val_main_v9_apply]
    exact slot x2 _ _ _ _ 1 1 1 1 (by decide) (by decide) rfl rfl rfl rfl rfl rfl i _ (round_trip i).1 (round_trip i).2.1
      (round_trip i).2.2

theorem stack5 (x1 x2 : Sout.Idx → Elt F .f32) (i : Sout.Idx) :
    val_main_v27 (F := F) x1 x2 (wIdx i (5 : Fin 9).val (5 : Fin 9).isLt) = padded x1 (pIdx i 1 0) := by
  unfold val_main_v27
  refine (concatenate_apply_piece (1 : Fin 4) _ _ (wIdx i (5 : Fin 9).val (5 : Fin 9).isLt) 5 ?_ S8x1x354x1218
    (val_main_v23 (F := F) x1) ?_ rfl 5 ?_ (pIdx i 1 1) ?_ ?_).trans ?_
  · show 5 < 9; decide
  · rfl
  · rfl
  · exact fun b hb => off_axis i (5 : Fin 9).val (5 : Fin 9).isLt b hb
  · rfl
  · rw [val_main_v23_apply, val_main_v11_apply]
    exact slot x1 _ _ _ _ 1 2 1 0 (by decide) (by decide) rfl rfl rfl rfl rfl rfl i _ (round_trip i).1 (round_trip i).2.1
      (round_trip i).2.2

theorem stack6 (x1 x2 : Sout.Idx → Elt F .f32) (i : Sout.Idx) :
    val_main_v27 (F := F) x1 x2 (wIdx i (6 : Fin 9).val (6 : Fin 9).isLt) = padded x1 (pIdx i 0 2) := by
  unfold val_main_v27
  refine (concatenate_apply_piece (1 : Fin 4) _ _ (wIdx i (6 : Fin 9).val (6 : Fin 9).isLt) 6 ?_ S8x1x354x1218
    (val_main_v24 (F := F) x1) ?_ rfl 6 ?_ (pIdx i 1 1) ?_ ?_).trans ?_
  · show 6 < 9; decide
  · rfl
  · rfl
  · exact fun b hb => off_axis i (6 : Fin 9).val (6 : Fin 9).isLt b hb
  · rfl
  · rw [val_main_v24_apply, val_main_v13_apply]
    exact slot x1 _ _ _ _ 2 0 0 2 (by decide) (by decide) rfl rfl rfl rfl rfl rfl i _ (round_trip i).1 (round_trip i).2.1
      (round_trip i).2.2

theorem stack7 (x1 x2 : Sout.Idx → Elt F .f32) (i : Sout.Idx) :
    val_main_v27 (F := F) x1 x2 (wIdx i (7 : Fin 9).val (7 : Fin 9).isLt) = padded x1 (pIdx i 0 1) := by
  unfold val_main_v27
  refine (concatenate_apply_piece (1 : Fin 4) _ _ (wIdx i (7 : Fin 9).val (7 : Fin 9).isLt) 7 ?_ S8x1x354x1218
    (val_main_v25 (F := F) x1) ?_ rfl 7 ?_ (pIdx i 1 1) ?_ ?_).trans ?_
  · show 7 < 9; decide
  · rfl
  · rfl
  · exact fun b hb => off_axis i (7 : Fin 9).val (7 : Fin 9).isLt b hb
  · rfl
  · rw [val_main_v25_apply, val_main_v15_apply]
    exact slot x1 _ _ _ _ 2 1 0 1 (by decide) (by decide) rfl rfl rfl rfl rfl rfl i _ (round_trip i).1 (round_trip i).2.1
      (round_trip i).2.2

theorem stack8 (x1 x2 : Sout.Idx → Elt F .f32) (i : Sout.Idx) :
    val_main_v27 (F := F) x1 x2 (wIdx i (8 : Fin 9).val (8 : Fin 9).isLt) = padded x1 (pIdx i 0 0) := by
  unfold val_main_v27
  refine (concatenate_apply_piece (1 : Fin 4) _ _ (wIdx i (8 : Fin 9).val (8 : Fin 9).isLt) 8 ?_ S8x1x354x1218
    (val_main_v26 (F := F) x1) ?_ rfl 8 ?_ (pIdx i 1 1) ?_ ?_).trans ?_
  · show 8 < 9; decide
  · rfl
  · rfl
  · exact fun b hb => off_axis i (8 : Fin 9).val (8 : Fin 9).isLt b hb
  · rfl
  · rw [val_main_v26_apply, val_main_v17_apply]
    exact slot x1 _ _ _ _ 2 2 0 0 (by decide) (by decide) rfl rfl rfl rfl rfl rfl i _ (round_trip i).1 (round_trip i).2.1
      (round_trip i).2.2

/-! ## The result -/

/-- The index the sum reads for offset `k` is `(b, k, 1 + h, 1 + w)`. -/
theorem sum_idx (i : Sout.Idx) (k : Fin 9) :
    idx_main_v29 (idx_main_v30 (idx_main_v31 i)) k = wIdx i k.val k.isLt := by
  funext a
  match a with
  | ⟨0, _⟩ => rfl
  | ⟨1, _⟩ => rfl
  | ⟨2, _⟩ => rfl
  | ⟨3, _⟩ => rfl

/-- THE REFERENCE'S RESULT, at the exact instance, is the propagation step of its arguments. -/
theorem result_eq (x0 : Sgw.Idx → Elt Ideal .f32) (x1 x2 : Sout.Idx → Elt Ideal .f32) :
    val_main_v31 (F := Ideal) x0 x1 x2 = step (F := Ideal) x0 x1 x2 := by
  funext i
  rw [val_main_v31_apply, val_main_v30_apply, val_main_v29_apply, sum9]
  simp only [val_main_v28_apply, sum_idx]
  rw [stack0, stack1, stack2, stack3, stack4, stack5, stack6, stack7, stack8]
  rw [val_main_cst_apply, Ideal.ofBits_def, Ideal.ofBits_zero_f32, zero_add]
  rfl

end Cert.ReferenceIdeal.Step

end
-- ==== Proof.lean ====
/-
  A 3 × 3 spatial propagation step, kernel against reference, over the extended reals.

  For every batch entry and pixel both programs compute the nine products of a weight `gw (b, k, 1 + h, 1 + w)` with
  the pixel's neighbour at offset `k` in a plane (`h0` for the centre `k = 4`, `hn` otherwise; zero outside the plane),
  and add them up. The kernel pads each plane once with a ring of zeros and reads nine shifted windows of it; the
  reference pads each plane nine ways, stacks the results, multiplies by the weights and sums over the stack. A pad's
  entry depends only on the difference between the read index and the low padding, and the two programs read at equal
  differences (Proof/LibPadShift.lean); so both results are the function `Cert.Cspn.step` of the arguments
  (Proof/Spec.lean): the kernel's by its blocks, one per batch entry, which tile the result (Proof/KernelValue.lean),
  the reference's by reading its run one operation at a time (Proof/RefValue.lean). The nine products are added in the
  same order on both sides, the reference starting from a zero that adds nothing, so no law of the extended reals
  beyond `0 + x = x` is used and the finiteness of the inputs plays no part.
  The two kernel programs' frames are the generated ones; the reference's frame is its run with the result dropped;
  the idealization rewrote nothing, so there is nothing to preserve.
-/
import proofs.«128017_j37056977830363_1_alg».proof.Defs
import proofs.«128017_j37056977830363_1_alg».proof.Proof.Gen.Kernel
import proofs.«128017_j37056977830363_1_alg».proof.Proof.Gen.Kernel.Skeleton
import proofs.«128017_j37056977830363_1_alg».proof.Proof.Gen.Kernel.Launch
import proofs.«128017_j37056977830363_1_alg».proof.Proof.Gen.Kernel.Points
import proofs.«128017_j37056977830363_1_alg».proof.Proof.Gen.Kernel.Frame
import proofs.«128017_j37056977830363_1_alg».proof.Proof.Gen.KernelIdeal
import proofs.«128017_j37056977830363_1_alg».proof.Proof.Gen.KernelIdeal.Skeleton
import proofs.«128017_j37056977830363_1_alg».proof.Proof.Gen.KernelIdeal.Launch
import proofs.«128017_j37056977830363_1_alg».proof.Proof.Gen.KernelIdeal.Points
import proofs.«128017_j37056977830363_1_alg».proof.Proof.Gen.KernelIdeal.Frame
import proofs.«128017_j37056977830363_1_alg».proof.Proof.Gen.ReferenceIdeal
import proofs.«128017_j37056977830363_1_alg».proof.Proof.Gen.Pre_finite_inputs
import proofs.«128017_j37056977830363_1_alg».proof.Proof.Gen.KernelIdeal.Value
import proofs.«128017_j37056977830363_1_alg».proof.Proof.KernelValue
import proofs.«128017_j37056977830363_1_alg».proof.Proof.RefValue
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference's frame: its run, the result dropped
    exact fun m ρ _ => (θ_run Cert.ReferenceIdeal.defs _ _).mono (fun _ h c => (h c).2)
      (Cert.ReferenceIdeal.ValueP.run (F := Ideal) m ρ)
  · -- both results are the propagation step of the kernel's arguments
    intro m ρ m' ρ' _ hagree
    refine ⟨fun c => Cert.Cspn.step (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
      Cert.KernelIdeal.Step.run (F := Ideal) m ρ, ?_⟩
    refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v31_eq, Cert.ReferenceIdeal.Step.result_eq, (hagree c).1, (hagree c).2.1,
      (hagree c).2.2]⟩

end Cert.Proof

end
